-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S1x16 .f32) (main_arg6 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32768x512 .f32) (main_arg1 : FVec F S32x512 .f32) (main_arg2 : FVec F S32 .f32) (main_arg3 : FVec F S16x32 .f32) (main_arg4 : FVec F S16 .f32) (main_arg5 : FVec F S1x16 .f32) (main_arg6 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_v13 main_v16
-- ==== Kernel.lean ====
abbrev S32768x512 : Shape := ⟨2, ![32768, 512]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S512x32 : Shape := ⟨2, ![512, 32]⟩
abbrev S32x16 : Shape := ⟨2, ![32, 16]⟩
abbrev S16x1 : Shape := ⟨2, ![16, 1]⟩
abbrev S1x32 : Shape := ⟨2, ![1, 32]⟩
abbrev S1x1 : Shape := ⟨2, ![1, 1]⟩
abbrev S32768x1 : Shape := ⟨2, ![32768, 1]⟩
abbrev S2048x512 : Shape := ⟨2, ![2048, 512]⟩
abbrev S4096x1 : Shape := ⟨2, ![4096, 1]⟩
abbrev S2048x32 : Shape := ⟨2, ![2048, 32]⟩
abbrev S2048x16 : Shape := ⟨2, ![2048, 16]⟩
abbrev S2048x1 : Shape := ⟨2, ![2048, 1]⟩

abbrev nBuf : Space → Nat
  | .hbm => 15
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32x512, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1, .f32⟩
  | .hbm, ⟨7, _⟩ => ⟨S512x32, .f32⟩
  | .hbm, ⟨8, _⟩ => ⟨S512x32, .bf16⟩
  | .hbm, ⟨9, _⟩ => ⟨S32x16, .f32⟩
  | .hbm, ⟨10, _⟩ => ⟨S16x1, .f32⟩
  | .hbm, ⟨11, _⟩ => ⟨S1x32, .f32⟩
  | .hbm, ⟨12, _⟩ => ⟨S1x16, .f32⟩
  | .hbm, ⟨13, _⟩ => ⟨S1x1, .f32⟩
  | .hbm, ⟨14, _⟩ => ⟨S32768x1, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x32, .bf16⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S16x1, .f32⟩
  | .local _ .vmem, ⟨9, _⟩ => ⟨S1x1, .f32⟩
  | .local _ .vmem, ⟨10, _⟩ => ⟨S4096x1, .f32⟩
  | .local _ .vmem, ⟨11, _⟩ => ⟨S4096x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S32x512_S512x32_1_0 : S32x512.Transposes [1, 0] S512x32
  bitsLt_bf16_f32 : FTy.bits .bf16 < FTy.bits .f32
  transposes_S16x32_S32x16_1_0 : S16x32.Transposes [1, 0] S32x16
  transposes_S1x16_S16x1_1_0 : S1x16.Transposes [1, 0] S16x1
  shapeCasts_S32_S1x32 : S32.ShapeCasts S1x32
  shapeCasts_S16_S1x16 : S16.ShapeCasts S1x16
  shapeCasts_S1_S1x1 : S1.ShapeCasts S1x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S2048x512_S2048x512_0_0 : ∀ a, (![0, 0] : Fin 2 → Nat) a + S2048x512.size a ≤ S2048x512.size a
  h_S2048x512 : 0 < S2048x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S4096x1_S2048x1_0_0 : ∀ a, (![0, 0] : Fin 2 → Nat) a + S2048x1.size a ≤ S4096x1.size a
  h_S2048x1 : 0 < S2048x1.numel
  inb_S4096x1_S2048x1_2048_0 : ∀ a, (![2048, 0] : Fin 2 → Nat) a + S2048x1.size a ≤ S4096x1.size a
  dot_S2048x512_S512x32_S2048x32_1_0_0_1_n_n_wf : DotDims.WF S2048x512 S512x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .bf16 = 32 ∨ (Rect.block (s := S512x32) S512x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S32768x1.size a
  hwx0_8 : ∀ i : grid0.Coords, EltTy.bits .f32 = 32 ∨ (Rect.block (s := S32768x1) S4096x1.size (cc0_transform_8 i) (hinb0_8 i)).WholeWords (EltTy.packing .f32)

variable [Facts₀]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x512 : Shape := ⟨2, ![32768, 512]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S512x32 : Shape := ⟨2, ![512, 32]⟩
abbrev S32x16 : Shape := ⟨2, ![32, 16]⟩
abbrev S16x1 : Shape := ⟨2, ![16, 1]⟩
abbrev S1x32 : Shape := ⟨2, ![1, 32]⟩
abbrev S1x1 : Shape := ⟨2, ![1, 1]⟩
abbrev S32768x1 : Shape := ⟨2, ![32768, 1]⟩
abbrev S2048x512 : Shape := ⟨2, ![2048, 512]⟩
abbrev S2048x1 : Shape := ⟨2, ![2048, 1]⟩
abbrev S2048x32 : Shape := ⟨2, ![2048, 32]⟩
abbrev S2048x16 : Shape := ⟨2, ![2048, 16]⟩

abbrev nBuf : Space → Nat
  | .hbm => 14
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32x512, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1, .f32⟩
  | .hbm, ⟨7, _⟩ => ⟨S512x32, .f32⟩
  | .hbm, ⟨8, _⟩ => ⟨S32x16, .f32⟩
  | .hbm, ⟨9, _⟩ => ⟨S16x1, .f32⟩
  | .hbm, ⟨10, _⟩ => ⟨S1x32, .f32⟩
  | .hbm, ⟨11, _⟩ => ⟨S1x16, .f32⟩
  | .hbm, ⟨12, _⟩ => ⟨S1x1, .f32⟩
  | .hbm, ⟨13, _⟩ => ⟨S32768x1, .f32⟩
  | .local _ .vmem, ⟨0, _⟩ => ⟨S2048x512, .f32⟩
  | .local _ .vmem, ⟨1, _⟩ => ⟨S2048x512, .f32⟩
  | .local _ .vmem, ⟨2, _⟩ => ⟨S512x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16x1, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S32x512_S512x32_1_0 : S32x512.Transposes [1, 0] S512x32
  transposes_S16x32_S32x16_1_0 : S16x32.Transposes [1, 0] S32x16
  transposes_S1x16_S16x1_1_0 : S1x16.Transposes [1, 0] S16x1
  shapeCasts_S32_S1x32 : S32.ShapeCasts S1x32
  shapeCasts_S16_S1x16 : S16.ShapeCasts S1x16
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x32_S2048x32_1_0_0_1_n_n_wf : DotDims.WF S2048x512 S512x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S32768x1.size a
  hwx0_7 : ∀ i : grid0.Coords, EltTy.bits .f32 = 32 ∨ (Rect.block (s := S32768x1) S2048x1.size (cc0_transform_7 i) (hinb0_7 i)).WholeWords (EltTy.packing .f32)

variable [Facts₀]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.KernelFrame.lean ====
/-
  The frame of the two-halves MLP kernel, proved against the launch theorem for windows that share an array.

  The pallas_call hands the batch matrix to the kernel through TWO input windows (rows 4096·i … +2047 and
  4096·i + 2048 … +2047 of the same array at grid point i), so the windows' arrays are not pairwise distinct and the
  array's full share is dealt between the two windows, half each; every other window holds its array whole. The body
  reads the eight input blocks and leaves in the 4096-row output block two 2048-row pieces, one per half, each a
  pure function of the blocks read; it carries nothing from point to point.
-/
import proofs.«154819_g2000206876986119_pallasbulk_25_4_alg».proof.Proof.Gen.Kernel.Launch
import proofs.«154819_g2000206876986119_pallasbulk_25_4_alg».proof.Proof.Gen.Kernel.Skeleton
import proofs.«154819_g2000206876986119_pallasbulk_25_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The TensorCore's buffers when the region is entered: the launch memory after the seven host operations
    (three transposes, one of them then narrowed, and three reshapes of the bias vectors to rows). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem found_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S2048x512 := Rect.unit (s := S2048x512) ![0, 0] S2048x512.size inb_S2048x512_S2048x512_0_0
abbrev rW1 : Rect S512x32 := Rect.unit (s := S512x32) ![0, 0] S512x32.size inb_S512x32_S512x32_0_0
abbrev rB1 : Rect S1x32 := Rect.unit (s := S1x32) ![0, 0] S1x32.size inb_S1x32_S1x32_0_0
abbrev rW2 : Rect S32x16 := Rect.unit (s := S32x16) ![0, 0] S32x16.size inb_S32x16_S32x16_0_0
abbrev rB2 : Rect S1x16 := Rect.unit (s := S1x16) ![0, 0] S1x16.size inb_S1x16_S1x16_0_0
abbrev rW3 : Rect S16x1 := Rect.unit (s := S16x1) ![0, 0] S16x1.size inb_S16x1_S16x1_0_0
abbrev rB3 : Rect S1x1 := Rect.unit (s := S1x1) ![0, 0] S1x1.size inb_S1x1_S1x1_0_0
/-- Rows 0 … 2047 of the output block, -/
abbrev rLo : Rect S4096x1 := Rect.unit (s := S4096x1) ![0, 0] S2048x1.size inb_S4096x1_S2048x1_0_0
/-- and rows 2048 … 4095. -/
abbrev rHi : Rect S4096x1 := Rect.unit (s := S4096x1) ![2048, 0] S2048x1.size inb_S4096x1_S2048x1_2048_0

/-- The first half's result: the three-layer network on the first batch block. -/
def loVal (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) : Vec F S2048x1 .f32 :=
  k0_pay3 (View.ld x2 rW1) (View.ld x0 rX) (View.ld x3 rB1) (View.ld x4 rW2) (View.ld x5 rB2) (View.ld x6 rW3) (View.ld x7 rB3)
/-- The second half's: the same network on the second batch block. -/
def hiVal (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) : Vec F S2048x1 .f32 :=
  k0_pay1 (k0_pay4 (View.ld x2 rW1) (View.ld x1 rX)) (View.ld x3 rB1) (View.ld x4 rW2) (View.ld x5 rB2) (View.ld x6 rW3) (View.ld x7 rB3)

/-- The output block after the body: the two halves' results laid at rows 0 … 2047 and 2048 … 4095 (the later
    store first). -/
def outBlk (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) : Vec F S4096x1 .f32 :=
  View.canon [⟨rHi, hiVal x0 x1 x2 x3 x4 x5 x6 x7⟩, ⟨rLo, loVal x0 x1 x2 x3 x4 x5 x6 x7⟩]

/-- The two stores tile the block. -/
theorem outCover (p0 p1 : Vec F S2048x1 .f32) (y : S4096x1.Idx) :
    ∃ pc ∈ ([⟨rHi, p1⟩, ⟨rLo, p0⟩] : List (View.Piece (Elt F) S4096x1 .f32)), y ∈ pc.1.set :=
  View.cover_of_tiled [⟨rHi, p1⟩, ⟨rLo, p0⟩] S2048x1.size (by rfl) y

/-! ## The body's triple -/

set_option maxHeartbeats 2000000 in
/-- On whole staging memrefs, the inputs' at contents `xW` and the output's at anything, the body runs to the
    continuation holding the inputs' as they were and the output's at `outBlk` of them. -/
theorem sound_kernel (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S512x32 .bf16) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S16x1 .f32) (harg7 : arg7.IsWhole) (arg8 : Memref sig .tc .vmem S1x1 .f32) (harg8 : arg8.IsWhole) (arg9 : Memref sig .tc .vmem S4096x1 .f32) (harg9 : arg9.IsWhole)
    (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlk x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  unfold outBlk loVal hiVal
  exact View.read_writes_eq_canon _ _ _ (outCover _ _)

/-! ## The proof data -/

/-- The arrays as the region finds them; after the body each input's buffer at its block and the output's at
    `outBlk` of the input blocks; the invariant the scoped rest, untouched; the batch matrix's share dealt half to
    each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlk (iblk m c 0 t) (iblk m c 1 t) (iblk m c 2 t) (iblk m c 3 t) (iblk m c 4 t) (iblk m c 5 t) (iblk m c 6 t) (iblk m c 7 t) := by dsimp only [dats]

theorem found_0 (c : Dev nD) (t : Fin cfg0.N) (d) : (dats m 0 c).before 0 t d = iblk m c 0 t :=
  found_0_of m (dats m 0 c) (A_eq m c 0) (after_0 m c) t d
theorem found_1 (c : Dev nD) (t : Fin cfg0.N) (d) : (dats m 0 c).before 1 t d = iblk m c 1 t :=
  found_1_of m (dats m 0 c) (A_eq m c 1) (after_1 m c) t d
theorem found_2 (c : Dev nD) (t : Fin cfg0.N) (d) : (dats m 0 c).before 2 t d = iblk m c 2 t :=
  found_2_of m (dats m 0 c) (A_eq m c 2) (after_2 m c) t d
theorem found_3 (c : Dev nD) (t : Fin cfg0.N) (d) : (dats m 0 c).before 3 t d = iblk m c 3 t :=
  found_3_of m (dats m 0 c) (A_eq m c 3) (after_3 m c) t d
theorem found_4 (c : Dev nD) (t : Fin cfg0.N) (d) : (dats m 0 c).before 4 t d = iblk m c 4 t :=
  found_4_of m (dats m 0 c) (A_eq m c 4) (after_4 m c) t d
theorem found_5 (c : Dev nD) (t : Fin cfg0.N) (d) : (dats m 0 c).before 5 t d = iblk m c 5 t :=
  found_5_of m (dats m 0 c) (A_eq m c 5) (after_5 m c) t d
theorem found_6 (c : Dev nD) (t : Fin cfg0.N) (d) : (dats m 0 c).before 6 t d = iblk m c 6 t :=
  found_6_of m (dats m 0 c) (A_eq m c 6) (after_6 m c) t d
theorem found_7 (c : Dev nD) (t : Fin cfg0.N) (d) : (dats m 0 c).before 7 t d = iblk m c 7 t :=
  found_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6, found_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The launch of the two-halves MLP kernel and its frame.

  The batch matrix's full share is split in two, one half to each of the two windows that read it; the other seven
  arrays go whole to their windows. The launch theorem for windows sharing an array then gives the run: every
  array of the pipeline ends at what the write-backs leave, every other unscoped buffer as the region found it.
-/
import proofs.«154819_g2000206876986119_pallasbulk_25_4_alg».proof.Proof.KernelFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The eight distinct buffers behind the nine windows. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v1) ↦{fullShare} V' main_v1)
        ∗ (((c : Thread nD τ).loc main_v4) ↦{fullShare} V' main_v4) ∗ (((c : Thread nD τ).loc main_v2) ↦{fullShare} V' main_v2)
        ∗ (((c : Thread nD τ).loc main_v5) ↦{fullShare} V' main_v5) ∗ (((c : Thread nD τ).loc main_v3) ↦{fullShare} V' main_v3)
        ∗ (((c : Thread nD τ).loc main_v6) ↦{fullShare} V' main_v6) ∗ (((c : Thread nD τ).loc main_v7) ↦{fullShare} V' main_v7)) := by
  unfold Pipeline.arrBufs
  exact bigSep_eq_bigSepL_of_eq [main_arg0, main_v1, main_v4, main_v2, main_v5, main_v3, main_v6, main_v7] (by decide) (by decide) _

/-- The windows' arrays, each a whole buffer at its window's share. -/
theorem arrays_eq (c : Dev nD) (G : (w : Fin cfg0.W) → Buf (Elt F) ((cfg0.win w).arr.view.loc (c.tc : Thread nD τ))) :
    (dats m 0 c).arrays G
      = bigSep Finset.univ fun w : Fin 9 => (((c.tc : Thread nD τ).loc (Pipeline.arrRef spec0 w)) ↦{(dats m 0 c).share w} G w : sProp 𝕄) := by
  unfold Dat.arrays
  exact bigSep_congr fun w _ => by rw [(arr_whole0 w).set_eq_univ]

/-- The batch matrix's share splits between its two windows; every other array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq, bigSep_W0]
  iintro ⟨H0, H1, H4, H2, H5, H3, H6, H7⟩
  ihave H0 := (pointsTo_share (PosShare.mem_left_op_right fullShare)).1 $$ H0
  icases H0 with ⟨Hl, Hr⟩
  isplitl [Hl]; · iexact Hl
  isplitl [Hr]; · iexact Hr
  isplitl [H1]; · iexact H1
  isplitl [H4]; · iexact H4
  isplitl [H2]; · iexact H2
  isplitl [H5]; · iexact H5
  isplitl [H3]; · iexact H3
  isplitl [H6]; · iexact H6
  iexact H7

/-! ## The run -/

set_option backward.isDefEq.respectTransparency.types false in
/-- Every weakly fair execution of the program from a memory with zero counters terminates; every array of the
    pipeline ends at what the write-backs leave of the proof data, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show _ ⊢ Pipeline.scopedRest (Ix := Unit) (Name := ℕ) (U := UR sig nD τ) (Lvl := ℕ) (Val := Elt F) spec0 c
      iintro ⟨-, H⟩; iexact H)
    (hout := fun c => by
      show Pipeline.scopedRest (Ix := Unit) (Name := ℕ) (U := UR sig nD τ) (Lvl := ℕ) (Val := Elt F) spec0 c ⊢ _
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Kernel.Hand.run_main' depends on axioms: [propext, Classical.choice, Quot.sound] -/
#guard_msgs in #print axioms run_main

/-- The frame: the argument arrays end as launched. The batch matrix is an input of both its windows, so it ends
    at its entry contents; the other six arguments are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Kernel.Hand

end
-- ==== Proof.KernelIdealFrame.lean ====
/-
  The frame of the two-halves MLP kernel, proved against the launch theorem for windows that share an array.

  The pallas_call hands the batch matrix to the kernel through TWO input windows (rows 4096·i … +2047 and
  4096·i + 2048 … +2047 of the same array at grid point i), so the windows' arrays are not pairwise distinct and the
  array's full share is dealt between the two windows, half each; every other window holds its array whole. The body
  reads the eight input blocks and leaves in the 4096-row output block two 2048-row pieces, one per half, each a
  pure function of the blocks read; it carries nothing from point to point.
-/
import proofs.«154819_g2000206876986119_pallasbulk_25_4_alg».proof.Proof.Gen.KernelIdeal.Launch
import proofs.«154819_g2000206876986119_pallasbulk_25_4_alg».proof.Proof.Gen.KernelIdeal.Skeleton
import proofs.«154819_g2000206876986119_pallasbulk_25_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The TensorCore's buffers when the region is entered: the launch memory after the seven host operations
    (three transposes, one of them then narrowed, and three reshapes of the bias vectors to rows). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem found_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S2048x512 := Rect.unit (s := S2048x512) ![0, 0] S2048x512.size inb_S2048x512_S2048x512_0_0
abbrev rW1 : Rect S512x32 := Rect.unit (s := S512x32) ![0, 0] S512x32.size inb_S512x32_S512x32_0_0
abbrev rB1 : Rect S1x32 := Rect.unit (s := S1x32) ![0, 0] S1x32.size inb_S1x32_S1x32_0_0
abbrev rW2 : Rect S32x16 := Rect.unit (s := S32x16) ![0, 0] S32x16.size inb_S32x16_S32x16_0_0
abbrev rB2 : Rect S1x16 := Rect.unit (s := S1x16) ![0, 0] S1x16.size inb_S1x16_S1x16_0_0
abbrev rW3 : Rect S16x1 := Rect.unit (s := S16x1) ![0, 0] S16x1.size inb_S16x1_S16x1_0_0
abbrev rB3 : Rect S1x1 := Rect.unit (s := S1x1) ![0, 0] S1x1.size inb_S1x1_S1x1_0_0
/-- Rows 0 … 2047 of the output block, -/
abbrev rLo : Rect S4096x1 := Rect.unit (s := S4096x1) ![0, 0] S2048x1.size inb_S4096x1_S2048x1_0_0
/-- and rows 2048 … 4095. -/
abbrev rHi : Rect S4096x1 := Rect.unit (s := S4096x1) ![2048, 0] S2048x1.size inb_S4096x1_S2048x1_2048_0

/-- The first half's result: the three-layer network on the first batch block. -/
def loVal (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) : Vec F S2048x1 .f32 :=
  k0_pay3 (View.ld x2 rW1) (View.ld x0 rX) (View.ld x3 rB1) (View.ld x4 rW2) (View.ld x5 rB2) (View.ld x6 rW3) (View.ld x7 rB3)
/-- The second half's: the same network on the second batch block. -/
def hiVal (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) : Vec F S2048x1 .f32 :=
  k0_pay1 (k0_pay4 (View.ld x2 rW1) (View.ld x1 rX)) (View.ld x3 rB1) (View.ld x4 rW2) (View.ld x5 rB2) (View.ld x6 rW3) (View.ld x7 rB3)

/-- The output block after the body: the two halves' results laid at rows 0 … 2047 and 2048 … 4095 (the later
    store first). -/
def outBlk (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) : Vec F S4096x1 .f32 :=
  View.canon [⟨rHi, hiVal x0 x1 x2 x3 x4 x5 x6 x7⟩, ⟨rLo, loVal x0 x1 x2 x3 x4 x5 x6 x7⟩]

/-- The two stores tile the block. -/
theorem outCover (p0 p1 : Vec F S2048x1 .f32) (y : S4096x1.Idx) :
    ∃ pc ∈ ([⟨rHi, p1⟩, ⟨rLo, p0⟩] : List (View.Piece (Elt F) S4096x1 .f32)), y ∈ pc.1.set :=
  View.cover_of_tiled [⟨rHi, p1⟩, ⟨rLo, p0⟩] S2048x1.size (by rfl) y

/-! ## The body's triple -/

set_option maxHeartbeats 2000000 in
/-- On whole staging memrefs, the inputs' at contents `xW` and the output's at anything, the body runs to the
    continuation holding the inputs' as they were and the output's at `outBlk` of them. -/
theorem sound_kernel (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S512x32 .bf16) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S16x1 .f32) (harg7 : arg7.IsWhole) (arg8 : Memref sig .tc .vmem S1x1 .f32) (harg8 : arg8.IsWhole) (arg9 : Memref sig .tc .vmem S4096x1 .f32) (harg9 : arg9.IsWhole)
    (x0 : Vec F S2048x512 .f32) (x1 : Vec F S2048x512 .f32) (x2 : Vec F S512x32 .bf16) (x3 : Vec F S1x32 .f32) (x4 : Vec F S32x16 .f32) (x5 : Vec F S1x16 .f32) (x6 : Vec F S16x1 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlk x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  unfold outBlk loVal hiVal
  exact View.read_writes_eq_canon _ _ _ (outCover _ _)

/-! ## The proof data -/

/-- The arrays as the region finds them; after the body each input's buffer at its block and the output's at
    `outBlk` of the input blocks; the invariant the scoped rest, untouched; the batch matrix's share dealt half to
    each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlk (iblk m c 0 t) (iblk m c 1 t) (iblk m c 2 t) (iblk m c 3 t) (iblk m c 4 t) (iblk m c 5 t) (iblk m c 6 t) (iblk m c 7 t) := by dsimp only [dats]

theorem found_0 (c : Dev nD) (t : Fin cfg0.N) (d) : (dats m 0 c).before 0 t d = iblk m c 0 t :=
  found_0_of m (dats m 0 c) (A_eq m c 0) (after_0 m c) t d
theorem found_1 (c : Dev nD) (t : Fin cfg0.N) (d) : (dats m 0 c).before 1 t d = iblk m c 1 t :=
  found_1_of m (dats m 0 c) (A_eq m c 1) (after_1 m c) t d
theorem found_2 (c : Dev nD) (t : Fin cfg0.N) (d) : (dats m 0 c).before 2 t d = iblk m c 2 t :=
  found_2_of m (dats m 0 c) (A_eq m c 2) (after_2 m c) t d
theorem found_3 (c : Dev nD) (t : Fin cfg0.N) (d) : (dats m 0 c).before 3 t d = iblk m c 3 t :=
  found_3_of m (dats m 0 c) (A_eq m c 3) (after_3 m c) t d
theorem found_4 (c : Dev nD) (t : Fin cfg0.N) (d) : (dats m 0 c).before 4 t d = iblk m c 4 t :=
  found_4_of m (dats m 0 c) (A_eq m c 4) (after_4 m c) t d
theorem found_5 (c : Dev nD) (t : Fin cfg0.N) (d) : (dats m 0 c).before 5 t d = iblk m c 5 t :=
  found_5_of m (dats m 0 c) (A_eq m c 5) (after_5 m c) t d
theorem found_6 (c : Dev nD) (t : Fin cfg0.N) (d) : (dats m 0 c).before 6 t d = iblk m c 6 t :=
  found_6_of m (dats m 0 c) (A_eq m c 6) (after_6 m c) t d
theorem found_7 (c : Dev nD) (t : Fin cfg0.N) (d) : (dats m 0 c).before 7 t d = iblk m c 7 t :=
  found_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6, found_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The launch of the two-halves MLP kernel and its frame.

  The batch matrix's full share is split in two, one half to each of the two windows that read it; the other seven
  arrays go whole to their windows. The launch theorem for windows sharing an array then gives the run: every
  array of the pipeline ends at what the write-backs leave, every other unscoped buffer as the region found it.
-/
import proofs.«154819_g2000206876986119_pallasbulk_25_4_alg».proof.Proof.KernelIdealFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The eight distinct buffers behind the nine windows. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v1) ↦{fullShare} V' main_v1)
        ∗ (((c : Thread nD τ).loc main_v4) ↦{fullShare} V' main_v4) ∗ (((c : Thread nD τ).loc main_v2) ↦{fullShare} V' main_v2)
        ∗ (((c : Thread nD τ).loc main_v5) ↦{fullShare} V' main_v5) ∗ (((c : Thread nD τ).loc main_v3) ↦{fullShare} V' main_v3)
        ∗ (((c : Thread nD τ).loc main_v6) ↦{fullShare} V' main_v6) ∗ (((c : Thread nD τ).loc main_v7) ↦{fullShare} V' main_v7)) := by
  unfold Pipeline.arrBufs
  exact bigSep_eq_bigSepL_of_eq [main_arg0, main_v1, main_v4, main_v2, main_v5, main_v3, main_v6, main_v7] (by decide) (by decide) _

/-- The windows' arrays, each a whole buffer at its window's share. -/
theorem arrays_eq (c : Dev nD) (G : (w : Fin cfg0.W) → Buf (Elt F) ((cfg0.win w).arr.view.loc (c.tc : Thread nD τ))) :
    (dats m 0 c).arrays G
      = bigSep Finset.univ fun w : Fin 9 => (((c.tc : Thread nD τ).loc (Pipeline.arrRef spec0 w)) ↦{(dats m 0 c).share w} G w : sProp 𝕄) := by
  unfold Dat.arrays
  exact bigSep_congr fun w _ => by rw [(arr_whole0 w).set_eq_univ]

/-- The batch matrix's share splits between its two windows; every other array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq, bigSep_W0]
  iintro ⟨H0, H1, H4, H2, H5, H3, H6, H7⟩
  ihave H0 := (pointsTo_share (PosShare.mem_left_op_right fullShare)).1 $$ H0
  icases H0 with ⟨Hl, Hr⟩
  isplitl [Hl]; · iexact Hl
  isplitl [Hr]; · iexact Hr
  isplitl [H1]; · iexact H1
  isplitl [H4]; · iexact H4
  isplitl [H2]; · iexact H2
  isplitl [H5]; · iexact H5
  isplitl [H3]; · iexact H3
  isplitl [H6]; · iexact H6
  iexact H7

/-! ## The run -/

set_option backward.isDefEq.respectTransparency.types false in
/-- Every weakly fair execution of the program from a memory with zero counters terminates; every array of the
    pipeline ends at what the write-backs leave of the proof data, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show _ ⊢ Pipeline.scopedRest (Ix := Unit) (Name := ℕ) (U := UR sig nD τ) (Lvl := ℕ) (Val := Elt F) spec0 c
      iintro ⟨-, H⟩; iexact H)
    (hout := fun c => by
      show Pipeline.scopedRest (Ix := Unit) (Name := ℕ) (U := UR sig nD τ) (Lvl := ℕ) (Val := Elt F) spec0 c ⊢ _
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.KernelIdeal.Hand.run_main' depends on axioms: [propext, Classical.choice, Quot.sound] -/
#guard_msgs in #print axioms run_main

/-- The frame: the argument arrays end as launched. The batch matrix is an input of both its windows, so it ends
    at its entry contents; the other six arguments are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Hand

end
-- ==== Proof.Spec.lean ====
/-
  The three-layer network as one function of the argument arrays.

  Row `r` of the result depends only on row `r` of the batch matrix. Both programs compute it 2048 rows at a time:
  on the block of rows `2048·b … 2048·b + 2047` of `x` (`rowBlock x b`), with the transposed weights and the
  biases as rows, the block's result is `σ(relu(relu(X·W1ᵀ + b1)·W2ᵀ + b2)·W3ᵀ + b3)` — the term `blockNet`.
  Row `r` of the whole result is row `r % 2048` of the result on block `r / 2048`.
-/
import proofs.«154819_g2000206876986119_pallasbulk_25_4_alg».proof.Proof.Gen.ReferenceIdeal.Skeleton
import Idealize.ShloMosaic.Lib.ValueIdx

noncomputable section

namespace Cert.Spec

open Idealize.ShloMosaic Idealize.ShloMosaic.ValueIdx
open Cert.ReferenceIdeal

/-- Rows `2048·b … 2048·b + 2047` of the batch matrix. -/
def rowBlock (x : Vec Ideal S32768x512 .f32) (b : Fin 16) : Vec Ideal S2048x512 .f32 :=
  fun y => x (ix2 (⟨2048 * b.val + (y 0).val, by have := idx2_lt0 y; have := b.isLt; omega⟩ : Fin 32768) (⟨(y 1).val, idx2_lt1 y⟩ : Fin 512))

/-- The network on one block of 2048 rows, the weights already transposed to (in, out) and the biases rows. -/
def blockNet (X : Vec Ideal S2048x512 .f32) (w1t : Vec Ideal S512x32 .f32) (b1r : Vec Ideal S1x32 .f32) (w2t : Vec Ideal S32x16 .f32)
    (b2r : Vec Ideal S1x16 .f32) (w3t : Vec Ideal S16x1 .f32) (b3r : Vec Ideal S1x1 .f32) : Vec Ideal S2048x1 .f32 :=
  Gen.k0_pay1 (F := Ideal) X w1t b1r w2t b2r w3t b3r

/-- The network on the whole batch, row by row through the blocks. -/
def net (x : Vec Ideal S32768x512 .f32) (w1t : Vec Ideal S512x32 .f32) (b1r : Vec Ideal S1x32 .f32) (w2t : Vec Ideal S32x16 .f32)
    (b2r : Vec Ideal S1x16 .f32) (w3t : Vec Ideal S16x1 .f32) (b3r : Vec Ideal S1x1 .f32) : Vec Ideal S32768x1 .f32 :=
  fun i => blockNet (rowBlock x ⟨(i 0).val / 2048, by have := idx2_lt0 i; omega⟩) w1t b1r w2t b2r w3t b3r
    (ix2 (⟨(i 0).val % 2048, Nat.mod_lt _ (by norm_num)⟩ : Fin 2048) (⟨(i 1).val, idx2_lt1 i⟩ : Fin 1))

/-- The result as a function of the seven arguments in their given orientation: weights (out, in), biases vectors. -/
def out (x : Vec Ideal S32768x512 .f32) (w1 : Vec Ideal S32x512 .f32) (b1 : Vec Ideal S32 .f32) (w2 : Vec Ideal S16x32 .f32)
    (b2 : Vec Ideal S16 .f32) (w3 : Vec Ideal S1x16 .f32) (b3 : Vec Ideal S1 .f32) : Vec Ideal S32768x1 .f32 :=
  net x (transpose S512x32 [1, 0] w1 Facts₀.transposes_S32x512_S512x32_1_0) (shapeCast S1x32 b1 Facts₀.shapeCasts_S32_S1x32)
    (transpose S32x16 [1, 0] w2 Facts₀.transposes_S16x32_S32x16_1_0) (shapeCast S1x16 b2 Facts₀.shapeCasts_S16_S1x16)
    (transpose S16x1 [1, 0] w3 Facts₀.transposes_S1x16_S16x1_1_0) (shapeCast S1x1 b3 Facts₀.shapeCasts_S1_S1x1)

end Cert.Spec

end
-- ==== Proof.PayloadBridge.lean ====
/-
  The kernel's two half-block results are the reference's block term.

  At the ideal instance a change of float format is the identity, so narrowing the batch block and the first
  weight matrix to bf16 before the first product changes nothing: both programs compute, on a block `X` of 2048
  rows, `σ(relu(relu(X·W1ᵀ + b1)·W2ᵀ + b2)·W3ᵀ + b3)` by the same three products, two maxima with zero and one
  logistic, in the same order.
-/
import proofs.«154819_g2000206876986119_pallasbulk_25_4_alg».proof.Proof.KernelIdealFrame
import proofs.«154819_g2000206876986119_pallasbulk_25_4_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Bridge

open Idealize.ShloMosaic Idealize.ShloMosaic.ValueIdx
open Cert.KernelIdeal Cert.KernelIdeal.Gen

/-- The offsets `0, 0` are the zero offsets. -/
theorem hz : (![0, 0] : Fin 2 → Nat) = fun _ => 0 := by
  funext a; match a with | ⟨0, _⟩ => rfl | ⟨1, _⟩ => rfl

/-- The kernel's first product: the block and the weights narrowed to bf16, multiplied into a zero accumulator. -/
abbrev firstK (X : FVec Ideal S2048x512 .f32) (W : FVec Ideal S512x32 .bf16) : FVec Ideal S2048x32 .f32 :=
  matmul (F := Ideal) (φ₁ := .bf16) (φ₂ := .bf16) dot_S2048x512_S512x32_S2048x32_1_0_0_1_n_n none (truncf .bf16 X Facts₀.bitsLt_bf16_f32)
    (shapeCast (α := Ideal .bf16) S512x32 W Facts₀.shapeCasts_S512x32_S512x32) (constant S2048x32 .f32 0x00000000#32)

/-- The reference's first product: the block times the weights, in f32. -/
abbrev firstR (X : FVec Ideal Cert.ReferenceIdeal.S2048x512 .f32) (W : FVec Ideal Cert.ReferenceIdeal.S512x32 .f32) : FVec Ideal Cert.ReferenceIdeal.S2048x32 .f32 :=
  matmul (F := Ideal) (φ₁ := .f32) (φ₂ := .f32) Cert.ReferenceIdeal.dot_S2048x512_S512x32_S2048x32_1_0_0_1_n_n none X
    (shapeCast (α := Ideal .f32) Cert.ReferenceIdeal.S512x32 W Cert.ReferenceIdeal.Facts₀.shapeCasts_S512x32_S512x32)
    (constant Cert.ReferenceIdeal.S2048x32 .f32 0x00000000#32)

/-- They are the same: every entry is the same sum of the same products of extended reals. -/
theorem first_eq (X : FVec Ideal S2048x512 .f32) (W : FVec Ideal S512x32 .bf16) : firstK X W = firstR X W := by
  funext j
  simp only [firstK, firstR, matmul]
  rw [Ideal.matmul_apply, Ideal.matmul_apply]
  rfl

/-- Layers two and three on the first product: the same term in both programs. -/
theorem tail_eq (x3 : Vec Ideal S1x32 .f32) (x4 : Vec Ideal S32x16 .f32)
    (x5 : Vec Ideal S1x16 .f32) (x6 : Vec Ideal S16x1 .f32) (x7 : Vec Ideal S1x1 .f32)
    (X : FVec Ideal S2048x512 .f32) (W : FVec Ideal S512x32 .bf16) :
    k0_pay1 (F := Ideal) (firstR X W) x3 x4 x5 x6 x7 = Cert.ReferenceIdeal.Gen.k0_pay1 (F := Ideal) X W x3 x4 x5 x6 x7 := by
  unfold k0_pay1 Cert.ReferenceIdeal.Gen.k0_pay1 firstR
  rfl

/-- The first half: the block term on the first batch block. -/
theorem lo_eq (x0 x1 : Vec Ideal S2048x512 .f32) (x2 : Vec Ideal S512x32 .bf16) (x3 : Vec Ideal S1x32 .f32) (x4 : Vec Ideal S32x16 .f32)
    (x5 : Vec Ideal S1x16 .f32) (x6 : Vec Ideal S16x1 .f32) (x7 : Vec Ideal S1x1 .f32) :
    Hand.loVal (F := Ideal) x0 x1 x2 x3 x4 x5 x6 x7 = Cert.Spec.blockNet x0 x2 x3 x4 x5 x6 x7 := by
  unfold Hand.loVal Cert.Spec.blockNet
  simp only [View.ld_unit_zero (S := S2048x512) hz, View.ld_unit_zero (S := S512x32) hz, View.ld_unit_zero (S := S1x32) hz, View.ld_unit_zero (S := S32x16) hz, View.ld_unit_zero (S := S1x16) hz, View.ld_unit_zero (S := S16x1) hz, View.ld_unit_zero (S := S1x1) hz]
  refine Eq.trans ?_ (tail_eq x3 x4 x5 x6 x7 x0 x2)
  rw [← first_eq]
  unfold k0_pay3 k0_pay2 k0_pay1 firstK
  rfl

/-- The second half: the block term on the second batch block. -/
theorem hi_eq (x0 x1 : Vec Ideal S2048x512 .f32) (x2 : Vec Ideal S512x32 .bf16) (x3 : Vec Ideal S1x32 .f32) (x4 : Vec Ideal S32x16 .f32)
    (x5 : Vec Ideal S1x16 .f32) (x6 : Vec Ideal S16x1 .f32) (x7 : Vec Ideal S1x1 .f32) :
    Hand.hiVal (F := Ideal) x0 x1 x2 x3 x4 x5 x6 x7 = Cert.Spec.blockNet x1 x2 x3 x4 x5 x6 x7 := by
  unfold Hand.hiVal Cert.Spec.blockNet
  simp only [View.ld_unit_zero (S := S2048x512) hz, View.ld_unit_zero (S := S512x32) hz, View.ld_unit_zero (S := S1x32) hz, View.ld_unit_zero (S := S32x16) hz, View.ld_unit_zero (S := S1x16) hz, View.ld_unit_zero (S := S16x1) hz, View.ld_unit_zero (S := S1x1) hz]
  refine Eq.trans ?_ (tail_eq x3 x4 x5 x6 x7 x1 x2)
  rw [← first_eq]
  unfold k0_pay4 k0_pay2 firstK
  rfl

end Cert.KernelIdeal.Bridge

end
-- ==== Proof.KValue.lean ====
/-
  The result array of the two-halves MLP kernel, read off its frame.

  At grid point `t` the kernel reads rows `4096·t … 4096·t + 2047` and `4096·t + 2048 … 4096·t + 4095` of the batch
  matrix through two windows (blocks `2t` and `2t + 1` of 2048 rows), the transposed weights and the biases as rows
  whole, and leaves in the output block the network of the first block at rows 0 … 2047 and of the second at rows
  2048 … 4095. Row `r` of the network depends only on row `r` of the batch matrix, so what point `t` writes back
  is block `t` (4096 rows) of ONE function of the launched arrays, the specification's `Cert.Spec.out`; the eight
  blocks tile the result array, which therefore ends holding that function.
-/
import proofs.«154819_g2000206876986119_pallasbulk_25_4_alg».proof.Proof.KernelIdealFrame
import proofs.«154819_g2000206876986119_pallasbulk_25_4_alg».proof.Proof.Spec
import proofs.«154819_g2000206876986119_pallasbulk_25_4_alg».proof.Proof.PayloadBridge
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.SL.Sem Cert.KernelIdeal Cert.KernelIdeal.Gen
open Idealize.ShloMosaic.Pipeline (Dat)
open Idealize.ShloMosaic.ValueIdx

variable (m : (ℓ : Loc nD τ sig) → Buf (Elt Ideal) ℓ)

/-! ## The index maps over the grid -/

/-- At point `t` the two batch windows sit at blocks `2t` and `2t + 1` of 2048 rows, the output window at block `t`
    of 4096 rows, and every small window at its one block. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_8.index t (0 : Fin 2) = t.val ∧ win0_8.index t (1 : Fin 2) = 0 :=
  (by decide +kernel : ∀ t : Fin grid0.N, _)

theorem idx_small : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The eight input blocks at a grid point -/

abbrev blk0 (c : Dev nD) (t : Fin cfg0.N) : Vec Ideal S2048x512 .f32 := Hand.iblk m c 0 t
abbrev blk1 (c : Dev nD) (t : Fin cfg0.N) : Vec Ideal S2048x512 .f32 := Hand.iblk m c 1 t
abbrev blk2 (c : Dev nD) (t : Fin cfg0.N) : Vec Ideal S512x32 .bf16 := Hand.iblk m c 2 t
abbrev blk3 (c : Dev nD) (t : Fin cfg0.N) : Vec Ideal S1x32 .f32 := Hand.iblk m c 3 t
abbrev blk4 (c : Dev nD) (t : Fin cfg0.N) : Vec Ideal S32x16 .f32 := Hand.iblk m c 4 t
abbrev blk5 (c : Dev nD) (t : Fin cfg0.N) : Vec Ideal S1x16 .f32 := Hand.iblk m c 5 t
abbrev blk6 (c : Dev nD) (t : Fin cfg0.N) : Vec Ideal S16x1 .f32 := Hand.iblk m c 6 t
abbrev blk7 (c : Dev nD) (t : Fin cfg0.N) : Vec Ideal S1x1 .f32 := Hand.iblk m c 7 t

/-- The batch matrix as launched. -/
abbrev xarr (c : Dev nD) : Vec Ideal S32768x512 .f32 := m ((c.tc : Thread nD τ).loc main_arg0)

/-- Window 0's block at point `t` is rows `2048·(2t) …` of the batch matrix. -/
theorem blk0_apply (c : Dev nD) (t : Fin cfg0.N) (y : S2048x512.Idx) (k : S32768x512.Idx)
    (hk0 : (k 0).val = 2048 * (2 * t.val) + (y 0).val) (hk1 : (k 1).val = (y 1).val) :
    blk0 m c t y = xarr m c k := by
  obtain ⟨e0, e1, -⟩ := idx_facts t
  show Hand.V m c main_arg0 (((cfg0.win 0).blk t).view.emb y) = m ((c.tc : Thread nD τ).loc main_arg0) k
  rw [Hand.V_main_arg0]
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 512 + 1 * (y 1).val = (k 1).val; rw [e1, hk1]; omega

/-- Window 1's block at point `t` is rows `2048·(2t + 1) …`. -/
theorem blk1_apply (c : Dev nD) (t : Fin cfg0.N) (y : S2048x512.Idx) (k : S32768x512.Idx)
    (hk0 : (k 0).val = 2048 * (2 * t.val + 1) + (y 0).val) (hk1 : (k 1).val = (y 1).val) :
    blk1 m c t y = xarr m c k := by
  obtain ⟨-, -, e0, e1, -⟩ := idx_facts t
  show Hand.V m c main_arg0 (((cfg0.win 1).blk t).view.emb y) = m ((c.tc : Thread nD τ).loc main_arg0) k
  rw [Hand.V_main_arg0]
  congr 1
  funext a
  apply Fin.ext
  match a with
  | ⟨0, _⟩ => show win0_1.index t (0 : Fin 2) * 2048 + 1 * (y 0).val = (k 0).val; rw [e0, hk0]; omega
  | ⟨1, _⟩ => show win0_1.index t (1 : Fin 2) * 512 + 1 * (y 1).val = (k 1).val; rw [e1, hk1]; omega

/-! ## The small windows hold their arrays whole -/

theorem blk2_eq (c : Dev nD) (t : Fin cfg0.N) : blk2 m c t = (Hand.V m c main_v1 : Vec Ideal S512x32 .bf16) := by
  obtain ⟨e0, e1, -⟩ := idx_small t
  funext y
  show Hand.V m c main_v1 (((cfg0.win 2).blk t).view.emb y) = Hand.V m c main_v1 y
  refine congrArg (Hand.V m c main_v1) (funext fun a => Fin.ext ?_)
  match a with
  | ⟨0, _⟩ => show win0_2.index t (0 : Fin 2) * 512 + 1 * (y 0).val = (y 0).val; rw [e0]; omega
  | ⟨1, _⟩ => show win0_2.index t (1 : Fin 2) * 32 + 1 * (y 1).val = (y 1).val; rw [e1]; omega

theorem blk3_eq (c : Dev nD) (t : Fin cfg0.N) : blk3 m c t = (Hand.V m c main_v4 : Vec Ideal S1x32 .f32) := by
  obtain ⟨-, -, e0, e1, -⟩ := idx_small t
  funext y
  show Hand.V m c main_v4 (((cfg0.win 3).blk t).view.emb y) = Hand.V m c main_v4 y
  refine congrArg (Hand.V m c main_v4) (funext fun a => Fin.ext ?_)
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

theorem blk4_eq (c : Dev nD) (t : Fin cfg0.N) : blk4 m c t = (Hand.V m c main_v2 : Vec Ideal S32x16 .f32) := by
  obtain ⟨-, -, -, -, e0, e1, -⟩ := idx_small t
  funext y
  show Hand.V m c main_v2 (((cfg0.win 4).blk t).view.emb y) = Hand.V m c main_v2 y
  refine congrArg (Hand.V m c main_v2) (funext fun a => Fin.ext ?_)
  match a with
  | ⟨0, _⟩ => show win0_4.index t (0 : Fin 2) * 32 + 1 * (y 0).val = (y 0).val; rw [e0]; omega
  | ⟨1, _⟩ => show win0_4.index t (1 : Fin 2) * 16 + 1 * (y 1).val = (y 1).val; rw [e1]; omega

theorem blk5_eq (c : Dev nD) (t : Fin cfg0.N) : blk5 m c t = (Hand.V m c main_v5 : Vec Ideal S1x16 .f32) := by
  obtain ⟨-, -, -, -, -, -, e0, e1, -⟩ := idx_small t
  funext y
  show Hand.V m c main_v5 (((cfg0.win 5).blk t).view.emb y) = Hand.V m c main_v5 y
  refine congrArg (Hand.V m c main_v5) (funext fun a => Fin.ext ?_)
  match a with
  | ⟨0, _⟩ => show win0_5.index t (0 : Fin 2) * 1 + 1 * (y 0).val = (y 0).val; rw [e0]; omega
  | ⟨1, _⟩ => show win0_5.index t (1 : Fin 2) * 16 + 1 * (y 1).val = (y 1).val; rw [e1]; omega

theorem blk6_eq (c : Dev nD) (t : Fin cfg0.N) : blk6 m c t = (Hand.V m c main_v3 : Vec Ideal S16x1 .f32) := by
  obtain ⟨-, -, -, -, -, -, -, -, e0, e1, -⟩ := idx_small t
  funext y
  show Hand.V m c main_v3 (((cfg0.win 6).blk t).view.emb y) = Hand.V m c main_v3 y
  refine congrArg (Hand.V m c main_v3) (funext fun a => Fin.ext ?_)
  match a with
  | ⟨0, _⟩ => show win0_6.index t (0 : Fin 2) * 16 + 1 * (y 0).val = (y 0).val; rw [e0]; omega
  | ⟨1, _⟩ => show win0_6.index t (1 : Fin 2) * 1 + 1 * (y 1).val = (y 1).val; rw [e1]; omega

theorem blk7_eq (c : Dev nD) (t : Fin cfg0.N) : blk7 m c t = (Hand.V m c main_v6 : Vec Ideal S1x1 .f32) := by
  obtain ⟨-, -, -, -, -, -, -, -, -, -, e0, e1⟩ := idx_small t
  funext y
  show Hand.V m c main_v6 (((cfg0.win 7).blk t).view.emb y) = Hand.V m c main_v6 y
  refine congrArg (Hand.V m c main_v6) (funext fun a => Fin.ext ?_)
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

/-! ## What the host operations leave in the small arrays

At the extended reals narrowing to bf16 changes nothing, so the first weight matrix arrives as its transpose. -/

theorem v1_eq (c : Dev nD) : (Hand.V m c main_v1 : Vec Ideal S512x32 .bf16)
    = transpose S512x32 [1, 0] (m ((c.tc : Thread nD τ).loc main_arg1)) transposes_S32x512_S512x32_1_0 := by
  dsimp only [Hand.V, Gen.hostOps0]; after_results; rfl

theorem v2_eq (c : Dev nD) : (Hand.V m c main_v2 : Vec Ideal S32x16 .f32)
    = transpose S32x16 [1, 0] (m ((c.tc : Thread nD τ).loc main_arg3)) transposes_S16x32_S32x16_1_0 := by
  dsimp only [Hand.V, Gen.hostOps0]; after_results

theorem v3_eq (c : Dev nD) : (Hand.V m c main_v3 : Vec Ideal S16x1 .f32)
    = transpose S16x1 [1, 0] (m ((c.tc : Thread nD τ).loc main_arg5)) transposes_S1x16_S16x1_1_0 := by
  dsimp only [Hand.V, Gen.hostOps0]; after_results

theorem v4_eq (c : Dev nD) : (Hand.V m c main_v4 : Vec Ideal S1x32 .f32)
    = shapeCast S1x32 (m ((c.tc : Thread nD τ).loc main_arg2)) shapeCasts_S32_S1x32 := by
  dsimp only [Hand.V, Gen.hostOps0]; after_results; rfl

theorem v5_eq (c : Dev nD) : (Hand.V m c main_v5 : Vec Ideal S1x16 .f32)
    = shapeCast S1x16 (m ((c.tc : Thread nD τ).loc main_arg4)) shapeCasts_S16_S1x16 := by
  dsimp only [Hand.V, Gen.hostOps0]; after_results; rfl

theorem v6_eq (c : Dev nD) : (Hand.V m c main_v6 : Vec Ideal S1x1 .f32)
    = shapeCast S1x1 (m ((c.tc : Thread nD τ).loc main_arg6)) shapeCasts_S1_S1x1 := by
  dsimp only [Hand.V, Gen.hostOps0]; after_results; rfl

/-! ## The output block row by row

The block is written by two stores, rows 0 … 2047 with the first half's result and rows 2048 … 4095 with the
second's; a row is read from the one store that holds it. -/

/-- A row below 2048 of a block written in two halves is read from the lower half's store. -/
theorem canon_lo (p0 p1 : Vec Ideal S2048x1 .f32) (y : S4096x1.Idx) (r : Fin 2048) (hr : (y 0).val = r.val) :
    View.canon ([⟨Hand.rHi, p1⟩, ⟨Hand.rLo, p0⟩] : List (View.Piece (Elt Ideal) S4096x1 .f32)) y
      = p0 (ix2 r (⟨0, Nat.one_pos⟩ : Fin 1)) := by
  have hy : y = Hand.rLo.emb (ix2 r (⟨0, Nat.one_pos⟩ : Fin 1)) := by
    funext a; apply Fin.ext
    match a with
    | ⟨0, _⟩ => show (y 0).val = 0 + 1 * r.val; omega
    | ⟨1, _⟩ => show (y 1).val = 0 + 1 * 0; have := idx2_lt1 y; omega
  have hn : y ∉ Hand.rHi.set := by
    rw [Rect.mem_set_unit]
    intro h
    have h0 : 2048 ≤ (y 0).val := (h 0).1
    have := r.isLt
    omega
  rw [View.canon_cons_of_not_mem (⟨Hand.rHi, p1⟩ : View.Piece (Elt Ideal) S4096x1 .f32) [⟨Hand.rLo, p0⟩] hn, hy]
  exact View.canon_cons_emb Hand.rLo p0 [] _

/-- A row from 2048 on is read from the upper half's store. -/
theorem canon_hi (p0 p1 : Vec Ideal S2048x1 .f32) (y : S4096x1.Idx) (r : Fin 2048) (hr : (y 0).val = 2048 + r.val) :
    View.canon ([⟨Hand.rHi, p1⟩, ⟨Hand.rLo, p0⟩] : List (View.Piece (Elt Ideal) S4096x1 .f32)) y
      = p1 (ix2 r (⟨0, Nat.one_pos⟩ : Fin 1)) := by
  have hy : y = Hand.rHi.emb (ix2 r (⟨0, Nat.one_pos⟩ : Fin 1)) := by
    funext a; apply Fin.ext
    match a with
    | ⟨0, _⟩ => show (y 0).val = 2048 + 1 * r.val; omega
    | ⟨1, _⟩ => show (y 1).val = 0 + 1 * 0; have := idx2_lt1 y; omega
  rw [hy]
  exact View.canon_cons_emb Hand.rHi p1 _ _

/-! ## The specification read at a row -/

/-- Row `2048·b + r` of the whole result is row `r` of the network on block `b`. -/
theorem net_apply (x : Vec Ideal S32768x512 .f32) (w1t : Vec Ideal S512x32 .f32) (b1r : Vec Ideal S1x32 .f32)
    (w2t : Vec Ideal S32x16 .f32) (b2r : Vec Ideal S1x16 .f32) (w3t : Vec Ideal S16x1 .f32) (b3r : Vec Ideal S1x1 .f32)
    (i : S32768x1.Idx) (b : Fin 16) (r : Fin 2048) (hi : (i 0).val = 2048 * b.val + r.val) :
    Cert.Spec.net x w1t b1r w2t b2r w3t b3r i
      = Cert.Spec.blockNet (Cert.Spec.rowBlock x b) w1t b1r w2t b2r w3t b3r (ix2 r (⟨0, Nat.one_pos⟩ : Fin 1)) := by
  have e1 : (i 0).val / 2048 = b.val := by have := r.isLt; omega
  have e2 : (i 0).val % 2048 = r.val := by have := r.isLt; omega
  have e3 : (i 1).val = 0 := by have := idx2_lt1 i; omega
  have hb : (⟨(i 0).val / 2048, by have := idx2_lt0 i; omega⟩ : Fin 16) = b := Fin.ext e1
  have hr : (⟨(i 0).val % 2048, Nat.mod_lt _ (by norm_num)⟩ : Fin 2048) = r := Fin.ext e2
  have h1 : (⟨(i 1).val, idx2_lt1 i⟩ : Fin 1) = ⟨0, Nat.one_pos⟩ := Fin.ext e3
  unfold Cert.Spec.net
  rw [hb, hr, h1]

/-! ## The arguments as the specification takes them -/

abbrev w1t (c : Dev nD) : Vec Ideal S512x32 .f32 := transpose S512x32 [1, 0] (m ((c.tc : Thread nD τ).loc main_arg1)) transposes_S32x512_S512x32_1_0
abbrev b1r (c : Dev nD) : Vec Ideal S1x32 .f32 := shapeCast S1x32 (m ((c.tc : Thread nD τ).loc main_arg2)) shapeCasts_S32_S1x32
abbrev w2t (c : Dev nD) : Vec Ideal S32x16 .f32 := transpose S32x16 [1, 0] (m ((c.tc : Thread nD τ).loc main_arg3)) transposes_S16x32_S32x16_1_0
abbrev b2r (c : Dev nD) : Vec Ideal S1x16 .f32 := shapeCast S1x16 (m ((c.tc : Thread nD τ).loc main_arg4)) shapeCasts_S16_S1x16
abbrev w3t (c : Dev nD) : Vec Ideal S16x1 .f32 := transpose S16x1 [1, 0] (m ((c.tc : Thread nD τ).loc main_arg5)) transposes_S1x16_S16x1_1_0
abbrev b3r (c : Dev nD) : Vec Ideal S1x1 .f32 := shapeCast S1x1 (m ((c.tc : Thread nD τ).loc main_arg6)) shapeCasts_S1_S1x1

/-- The whole result: the network of the launched arrays. -/
abbrev G (c : Dev nD) : Vec Ideal S32768x1 .f32 :=
  Cert.Spec.net (xarr m c) (w1t m c) (b1r m c) (w2t m c) (b2r m c) (w3t m c) (b3r m c)

theorem t_lt (t : Fin cfg0.N) : t.val < 8 := lt_of_lt_of_eq t.isLt N_0

/-- The two batch blocks at point `t` are the specification's row blocks `2t` and `2t + 1`. -/
theorem blk0_eq (c : Dev nD) (t : Fin cfg0.N) :
    blk0 m c t = Cert.Spec.rowBlock (xarr m c) ⟨2 * t.val, by have := t_lt t; omega⟩ := by
  funext y
  exact blk0_apply m c t y _ rfl rfl

theorem blk1_eq (c : Dev nD) (t : Fin cfg0.N) :
    blk1 m c t = Cert.Spec.rowBlock (xarr m c) ⟨2 * t.val + 1, by have := t_lt t; omega⟩ := by
  funext y
  exact blk1_apply m c t y _ rfl rfl

/-! ## What a point writes back -/

/-- Row `y` of the output block at point `t` is row `4096·t + y` of the whole result. -/
theorem row_eq (c : Dev nD) (t : Fin cfg0.N) (y : S4096x1.Idx) (i : S32768x1.Idx)
    (hi : (i 0).val = 4096 * t.val + (y 0).val) :
    Hand.outBlk (blk0 m c t) (blk1 m c t) (blk2 m c t) (blk3 m c t) (blk4 m c t) (blk5 m c t) (blk6 m c t) (blk7 m c t) y
      = Cert.Spec.net (xarr m c) (w1t m c) (b1r m c) (w2t m c) (b2r m c) (w3t m c) (b3r m c) i := by
  have ht := t_lt t
  have hy0 : (y 0).val < 4096 := idx2_lt0 y
  unfold Hand.outBlk
  by_cases h : (y 0).val < 2048
  · rw [canon_lo _ _ y ⟨(y 0).val, h⟩ rfl, Bridge.lo_eq,
      net_apply (xarr m c) (w1t m c) (b1r m c) (w2t m c) (b2r m c) (w3t m c) (b3r m c) i ⟨2 * t.val, by omega⟩ ⟨(y 0).val, h⟩
        (by show (i 0).val = 2048 * (2 * t.val) + (y 0).val; omega),
      blk0_eq m c t, blk2_eq m c t, blk3_eq m c t, blk4_eq m c t, blk5_eq m c t, blk6_eq m c t, blk7_eq m c t,
      v1_eq m c, v2_eq m c, v3_eq m c, v4_eq m c, v5_eq m c, v6_eq m c]
  · rw [canon_hi _ _ y ⟨(y 0).val - 2048, by omega⟩ (by show (y 0).val = 2048 + ((y 0).val - 2048); omega), Bridge.hi_eq,
      net_apply (xarr m c) (w1t m c) (b1r m c) (w2t m c) (b2r m c) (w3t m c) (b3r m c) i ⟨2 * t.val + 1, by omega⟩ ⟨(y 0).val - 2048, by omega⟩
        (by show (i 0).val = 2048 * (2 * t.val + 1) + ((y 0).val - 2048); omega),
      blk1_eq m c t, blk2_eq m c t, blk3_eq m c t, blk4_eq m c t, blk5_eq m c t, blk6_eq m c t, blk7_eq m c t,
      v1_eq m c, v2_eq m c, v3_eq m c, v4_eq m c, v5_eq m c, v6_eq m c]

/-- Point `t` writes back block `t` of the whole result. -/
theorem flushed_eq (c : Dev nD) (t : Fin cfg0.N) :
    (Hand.dats (F := Ideal) m 0 c).flushed 8 t = ((cfg0.win 8).blk t).view.read (Elt Ideal) (G m c) := by
  show (cfg0.win 8).cut (grid0.coords t) ((Hand.dats m 0 c).after 8 t) = _
  rw [Hand.after_8]
  obtain ⟨-, -, -, -, e0, e1⟩ := idx_facts t
  funext y
  show Hand.outBlk (blk0 m c t) (blk1 m c t) (blk2 m c t) (blk3 m c t) (blk4 m c t) (blk5 m c t) (blk6 m c t) (blk7 m c t)
        ((cfg0.win 8).xinj (grid0.coords t) y)
      = Cert.Spec.net (xarr m c) (w1t m c) (b1r m c) (w2t m c) (b2r m c) (w3t m c) (b3r m c) (((cfg0.win 8).blk t).view.emb y)
  refine row_eq m c t _ _ ?_
  show win0_8.index t (0 : Fin 2) * 4096 + 1 * (y 0).val = 4096 * t.val + (y 0).val
  rw [e0]; omega

/-! ## The array after the run -/

/-- Row `r` of the result array lies in the block of point `r / 4096`, so the eight write-backs fill the array. -/
theorem final_G (c : Dev nD) : (Hand.dats (F := Ideal) m 0 c).arrAt 8 cfg0.N = G m c :=
  (Hand.dats m 0 c).arrAt_eq_of_cover 8 (G m c) (fun t _ => flushed_eq m c t) fun i => by
    have hi0 : (i 0).val < 32768 := (i 0).isLt
    have hi1 : (i 1).val < 1 := (i 1).isLt
    obtain ⟨t, ht⟩ : ∃ t : Fin cfg0.N, t.val = (i 0).val / 4096 :=
      ⟨⟨(i 0).val / 4096, by rw [show cfg0.N = 8 from N_0]; omega⟩, rfl⟩
    obtain ⟨-, -, -, -, e0, e1⟩ := idx_facts t
    refine ⟨t, flush0_8 t, ?_⟩
    show i ∈ ((View.whole main_v7).slice (win0_8.rect t)).set
    rw [View.set_slice_whole, Rect.mem_set_unit]
    intro a
    match a with
    | ⟨0, _⟩ =>
      show win0_8.index t (0 : Fin 2) * 4096 ≤ (i 0).val ∧ (i 0).val < win0_8.index t (0 : Fin 2) * 4096 + 4096
      rw [e0, ht]; omega
    | ⟨1, _⟩ =>
      show win0_8.index t (1 : Fin 2) * 1 ≤ (i 1).val ∧ (i 1).val < win0_8.index t (1 : Fin 2) * 1 + 1
      rw [e1]; omega

/-- After all eight write-backs the result array is the network of the argument arrays. -/
theorem final (c : Dev nD) :
    (Hand.dats (F := Ideal) m 0 c).arrAt 8 cfg0.N = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  final_G m c

end Cert.KernelIdeal.KValue

end
-- ==== Proof.RefValue.lean ====
/-
  The reference program's result array, read off its run.

  The program transposes the three weight matrices and reshapes the three bias vectors to rows, then runs one
  region over a grid of 16 points. At point `t` the body reads rows `2048·t … 2048·t + 2047` of the batch matrix and
  the six small arrays whole, and stores the block network of them into rows `2048·t … 2048·t + 2047` of the result.

  Here: the windows' block indices over the grid (`idx_facts`); row `i` of the network as a row of the block network
  (`net_apply`); the batch window's block as a row block of the batch matrix (`iblk0_eq`) and the small windows'
  blocks as the whole arrays (`iblk1_eq` … `iblk6_eq`); the small arrays as the transposes and reshapes of the
  arguments (`V_main_v0` … `V_main_v5`); what each point writes back as a block of the network (`flushed_eq`); the 16
  blocks cover the 32768 rows (`cover`); so the result array is the network of the arguments (`final`, `run`).
-/
import proofs.«154819_g2000206876986119_pallasbulk_25_4_alg».proof.Proof.Gen.ReferenceIdeal.Frame
import proofs.«154819_g2000206876986119_pallasbulk_25_4_alg».proof.Proof.Spec
import Idealize.ShloMosaic.Lib.Pipeline.Value
import Idealize.ShloMosaic.Lib.ValueIdx
import Idealize.ShloMosaic.Lib.StableHlo.Run

set_option maxRecDepth 16384

noncomputable section

namespace Cert.ReferenceIdeal.RefValue

open Idealize.ShloMosaic Idealize.ShloMosaic.TcCoe Idealize.SL.Sem Cert.ReferenceIdeal
open Cert.ReferenceIdeal.Gen Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the batch window and the result window sit at block row `t`, column block 0;
    the six small windows sit at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `i` of the network is row `j` of the block network on block `b`, when `i` is row `j` of block `b`. -/
theorem net_apply (x : Vec Ideal S32768x512 .f32) (w1t : Vec Ideal S512x32 .f32) (b1r : Vec Ideal S1x32 .f32) (w2t : Vec Ideal S32x16 .f32)
    (b2r : Vec Ideal S1x16 .f32) (w3t : Vec Ideal S16x1 .f32) (b3r : Vec Ideal S1x1 .f32)
    (b : Fin 16) (i : S32768x1.Idx) (j : S2048x1.Idx)
    (hi0 : (i 0).val = 2048 * b.val + (j 0).val) (hi1 : (i 1).val = (j 1).val) :
    Cert.Spec.net x w1t b1r w2t b2r w3t b3r i = Gen.k0_pay1 (F := Ideal) (Cert.Spec.rowBlock x b) w1t b1r w2t b2r w3t b3r j := by
  have hj0 : (j 0).val < 2048 := idx2_lt0 j
  have hb : (⟨(i 0).val / 2048, by have := idx2_lt0 i; omega⟩ : Fin 16) = b := Fin.ext (by show (i 0).val / 2048 = b.val; omega)
  have hj : (ix2 (⟨(i 0).val % 2048, Nat.mod_lt _ (by norm_num)⟩ : Fin 2048) (⟨(i 1).val, idx2_lt1 i⟩ : Fin 1)) = j := by
    funext a; apply Fin.ext
    match a with
    | ⟨0, _⟩ => show (i 0).val % 2048 = (j 0).val; omega
    | ⟨1, _⟩ => show (i 1).val = (j 1).val; exact hi1
  unfold Cert.Spec.net Cert.Spec.blockNet
  rw [hb, hj]

/-- The batch window's block at point `t` is rows `2048·t … 2048·t + 2047` of the batch matrix. -/
theorem iblk0_eq (c : Dev nD) (t : Fin cfg0.N) (b : Fin 16) (hb : b.val = t.val) :
    (iblk m c 0 t : Vec Ideal S2048x512 .f32) = Cert.Spec.rowBlock (V m c main_arg0) b := by
  obtain ⟨e0, e1, -⟩ := idx_facts t
  funext y
  unfold iblk
  rw [View.read_apply]
  show V m c main_arg0 _ = V m c main_arg0 _
  congr 1
  funext a
  apply Fin.ext
  match a with
  | ⟨0, _⟩ => show win0_0.index t (0 : Fin 2) * 2048 + 1 * (y 0).val = 2048 * b.val + (y 0).val; rw [e0, hb]; omega
  | ⟨1, _⟩ => show win0_0.index t (1 : Fin 2) * 512 + 1 * (y 1).val = (y 1).val; rw [e1]; omega

/-! ## The six small windows: block (0, 0) of extents the whole array's is the array -/

theorem iblk1_eq (c : Dev nD) (t : Fin cfg0.N) : (iblk m c 1 t : Vec Ideal S512x32 .f32) = V m c main_v0 := by
  obtain ⟨-, -, e0, e1, -⟩ := idx_facts t
  funext y
  unfold iblk
  rw [View.read_apply]
  show V m c main_v0 _ = V m c main_v0 y
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 32 + 1 * (y 1).val = (y 1).val; rw [e1]; omega

theorem iblk2_eq (c : Dev nD) (t : Fin cfg0.N) : (iblk m c 2 t : Vec Ideal S1x32 .f32) = V m c main_v3 := by
  obtain ⟨-, -, -, -, e0, e1, -⟩ := idx_facts t
  funext y
  unfold iblk
  rw [View.read_apply]
  show V m c main_v3 _ = V m c main_v3 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

theorem iblk3_eq (c : Dev nD) (t : Fin cfg0.N) : (iblk m c 3 t : Vec Ideal S32x16 .f32) = V m c main_v1 := by
  obtain ⟨-, -, -, -, -, -, e0, e1, -⟩ := idx_facts t
  funext y
  unfold iblk
  rw [View.read_apply]
  show V m c main_v1 _ = V m c main_v1 y
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 16 + 1 * (y 1).val = (y 1).val; rw [e1]; omega

theorem iblk4_eq (c : Dev nD) (t : Fin cfg0.N) : (iblk m c 4 t : Vec Ideal S1x16 .f32) = V m c main_v4 := by
  obtain ⟨-, -, -, -, -, -, -, -, e0, e1, -⟩ := idx_facts t
  funext y
  unfold iblk
  rw [View.read_apply]
  show V m c main_v4 _ = V m c main_v4 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

theorem iblk5_eq (c : Dev nD) (t : Fin cfg0.N) : (iblk m c 5 t : Vec Ideal S16x1 .f32) = V m c main_v2 := by
  obtain ⟨-, -, -, -, -, -, -, -, -, -, e0, e1, -⟩ := idx_facts t
  funext y
  unfold iblk
  rw [View.read_apply]
  show V m c main_v2 _ = V m c main_v2 y
  congr 1
  funext a
  apply Fin.ext
  match a with
  | ⟨0, _⟩ => show win0_5.index t (0 : Fin 2) * 16 + 1 * (y 0).val = (y 0).val; rw [e0]; omega
  | ⟨1, _⟩ => show win0_5.index t (1 : Fin 2) * 1 + 1 * (y 1).val = (y 1).val; rw [e1]; omega

theorem iblk6_eq (c : Dev nD) (t : Fin cfg0.N) : (iblk m c 6 t : Vec Ideal S1x1 .f32) = V m c main_v5 := by
  obtain ⟨-, -, -, -, -, -, -, -, -, -, -, -, e0, e1, -⟩ := idx_facts t
  funext y
  unfold iblk
  rw [View.read_apply]
  show V m c main_v5 _ = V m c main_v5 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-! ## The host operations' results -/

theorem V_main_v0 (c : Dev nD) : (V m c main_v0 : Vec Ideal S512x32 .f32) = transpose S512x32 [1, 0] (m ((c.tc : Thread nD τ).loc main_arg1)) Facts₀.transposes_S32x512_S512x32_1_0 := by
  dsimp only [Gen.V, Gen.hostOps0]; after_results
theorem V_main_v1 (c : Dev nD) : (V m c main_v1 : Vec Ideal S32x16 .f32) = transpose S32x16 [1, 0] (m ((c.tc : Thread nD τ).loc main_arg3)) Facts₀.transposes_S16x32_S32x16_1_0 := by
  dsimp only [Gen.V, Gen.hostOps0]; after_results
theorem V_main_v2 (c : Dev nD) : (V m c main_v2 : Vec Ideal S16x1 .f32) = transpose S16x1 [1, 0] (m ((c.tc : Thread nD τ).loc main_arg5)) Facts₀.transposes_S1x16_S16x1_1_0 := by
  dsimp only [Gen.V, Gen.hostOps0]; after_results
theorem V_main_v3 (c : Dev nD) : (V m c main_v3 : Vec Ideal S1x32 .f32) = shapeCast S1x32 (m ((c.tc : Thread nD τ).loc main_arg2)) Facts₀.shapeCasts_S32_S1x32 := by
  dsimp only [Gen.V, Gen.hostOps0]; after_results; rfl
theorem V_main_v4 (c : Dev nD) : (V m c main_v4 : Vec Ideal S1x16 .f32) = shapeCast S1x16 (m ((c.tc : Thread nD τ).loc main_arg4)) Facts₀.shapeCasts_S16_S1x16 := by
  dsimp only [Gen.V, Gen.hostOps0]; after_results; rfl
theorem V_main_v5 (c : Dev nD) : (V m c main_v5 : Vec Ideal S1x1 .f32) = shapeCast S1x1 (m ((c.tc : Thread nD τ).loc main_arg6)) Facts₀.shapeCasts_S1_S1x1 := by
  dsimp only [Gen.V, Gen.hostOps0]; after_results; rfl

/-! ## From the blocks to the array -/

/-- The network of the argument arrays as launched. -/
abbrev G (c : Dev nD) : Vec Ideal S32768x1 .f32 :=
  Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- What point `t` writes back is block `t` of the network: the body's result on rows `2048·t … 2048·t + 2047`. -/
theorem flushed_eq (c : Dev nD) (t : Fin cfg0.N) :
    (dats m 0 c).flushed 7 t = ((cfg0.win 7).blk t).view.read (Elt Ideal) (G m c) := by
  have hN : cfg0.N = 16 := N_0
  have ht : t.val < 16 := by have := t.isLt; omega
  obtain ⟨-, -, -, -, -, -, -, -, -, -, -, -, -, -, e0, e1⟩ := idx_facts t
  show (cfg0.win 7).cut (grid0.coords t) ((dats m 0 c).after 7 t) = _
  rw [after0_7]
  unfold out0_7
  rw [View.canon_unit_zero hz]
  simp only [View.ld_unit_zero (S := S2048x512) hz, View.ld_unit_zero (S := S512x32) hz, View.ld_unit_zero (S := S1x32) hz,
    View.ld_unit_zero (S := S32x16) hz, View.ld_unit_zero (S := S1x16) hz, View.ld_unit_zero (S := S16x1) hz, View.ld_unit_zero (S := S1x1) hz]
  rw [iblk0_eq m c t ⟨t.val, ht⟩ rfl, iblk1_eq, iblk2_eq, iblk3_eq, iblk4_eq, iblk5_eq, iblk6_eq,
    V_main_v0, V_main_v1, V_main_v2, V_main_v3, V_main_v4, V_main_v5, V_main_arg0]
  funext j
  have h0 : ((((cfg0.win 7).blk t).view.emb j) 0).val = 2048 * t.val + (j 0).val := by
    show win0_7.index t (0 : Fin 2) * 2048 + 1 * (j 0).val = 2048 * t.val + (j 0).val; rw [e0]; omega
  have h1 : ((((cfg0.win 7).blk t).view.emb j) 1).val = (j 1).val := by
    show win0_7.index t (1 : Fin 2) * 1 + 1 * (j 1).val = (j 1).val; rw [e1]; omega
  show Gen.k0_pay1 (F := Ideal) _ _ _ _ _ _ _ j = G m c (((cfg0.win 7).blk t).view.emb j)
  exact (net_apply _ _ _ _ _ _ _ ⟨t.val, ht⟩ (((cfg0.win 7).blk t).view.emb j) j h0 h1).symm

/-- An index of the result array is in point `t`'s block iff each coordinate is in the block's range on its axis. -/
theorem mem_blk (t : Fin cfg0.N) (i : S32768x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v6).slice (win0_7.rect t)).set ↔ _
  rw [View.set_slice_whole, Rect.mem_set_unit]
  exact Iff.rfl

/-- The 16 blocks cover the 32768 rows: row `r` is in the block of point `r / 2048`. -/
theorem cover (i : S32768x1.Idx) : ∃ t : Fin cfg0.N, (cfg0.win 7).flush t = true ∧ i ∈ ((cfg0.win 7).blk t).view.set := by
  have hN : cfg0.N = 16 := N_0
  have hi0 : (i 0).val < 32768 := idx2_lt0 i
  have hi1 : (i 1).val < 1 := idx2_lt1 i
  obtain ⟨t, htv⟩ : ∃ t : Fin cfg0.N, t.val = (i 0).val / 2048 := ⟨⟨(i 0).val / 2048, by omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; rw [e0, htv]; omega
  | ⟨1, _⟩ => show win0_7.index t (1 : Fin 2) * 1 ≤ (i 1).val ∧ (i 1).val < win0_7.index t (1 : Fin 2) * 1 + 1; rw [e1]; omega

/-- The result array after the run is the network of the arguments. -/
theorem final (c : Dev nD) : (dats m 0 c).arrAt 7 cfg0.N = G m c :=
  (dats m 0 c).arrAt_eq_of_cover 7 (G m c) (fun t _ => flushed_eq m c t) cover

/-! ## The run, read -/

/-- The reference's run: the result array ends at the network of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

/-- info: 'Cert.ReferenceIdeal.RefValue.run' depends on axioms: [propext, Classical.choice, Quot.sound] -/
#guard_msgs in #print axioms run

end Cert.ReferenceIdeal.RefValue

end
-- ==== Proof.lean ====
/-
  A three-layer perceptron with a sigmoid output, `σ(relu(relu(x·W1ᵀ + b1)·W2ᵀ + b2)·W3ᵀ + b3)` over a batch of
  32768 rows of 512 features, computed two ways.

  The reference walks the batch in 16 blocks of 2048 rows. The kernel walks it in 8 steps and at each step reads
  TWO blocks of 2048 rows — the same batch matrix handed to it through two windows, at blocks 2i and 2i + 1 — and
  writes their results into the two halves of one 4096-row output block; it also narrows the batch block and the
  first weight matrix to bf16 before the first product. Over the extended reals a change of float format is the
  identity, so on each block of 2048 rows both programs compute the same term (Proof/PayloadBridge.lean), and row
  `r` of either result is row `r % 2048` of that term on block `r / 2048` (Proof/Spec.lean; Proof/RefValue.lean for
  the reference, Proof/KValue.lean for the kernel). The equality needs no finiteness: both sides are one function.

  The kernel's two windows share an array, so its frame is proved against the launch theorem for shared arrays, the
  batch matrix's share dealt half to each window (Proof/KernelFrame.lean and Proof/KernelRun.lean at the word level,
  Proof/KernelIdealFrame.lean and Proof/KernelIdealRun.lean at the ideal level). The ideal pass rewrote nothing.
-/
import proofs.«154819_g2000206876986119_pallasbulk_25_4_alg».proof.Defs
import proofs.«154819_g2000206876986119_pallasbulk_25_4_alg».proof.Proof.Gen.Kernel
import proofs.«154819_g2000206876986119_pallasbulk_25_4_alg».proof.Proof.Gen.KernelIdeal
import proofs.«154819_g2000206876986119_pallasbulk_25_4_alg».proof.Proof.Gen.ReferenceIdeal
import proofs.«154819_g2000206876986119_pallasbulk_25_4_alg».proof.Proof.Gen.ReferenceIdeal.Frame
import proofs.«154819_g2000206876986119_pallasbulk_25_4_alg».proof.Proof.Gen.Pre_finite_inputs
import proofs.«154819_g2000206876986119_pallasbulk_25_4_alg».proof.Proof.KernelRun
import proofs.«154819_g2000206876986119_pallasbulk_25_4_alg».proof.Proof.KernelIdealRun
import proofs.«154819_g2000206876986119_pallasbulk_25_4_alg».proof.Proof.KValue
import proofs.«154819_g2000206876986119_pallasbulk_25_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates and leaves its arguments as launched. -/
theorem frame_k : Cert.frame_Kernel := fun m ρ _ => Cert.Kernel.Hand.frame m ρ

/-- So does the idealized kernel, -/
theorem frame_ki : Cert.frame_KernelIdeal := fun m ρ _ => Cert.KernelIdeal.Hand.frame m ρ

/-- and the idealized reference. -/
theorem frame_ri : Cert.frame_ReferenceIdeal := fun m ρ _ => Cert.ReferenceIdeal.Gen.frame m ρ

/-- The idealized kernel's run with its result named: the result array ends at the network of the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c => ⟨((h c).1 8).trans (Cert.KernelIdeal.KValue.final m c),
      ((h c).1 0).trans (((Cert.KernelIdeal.Hand.dats m 0 c).arrAt_in 0 rfl _).trans ((Cert.KernelIdeal.Hand.A_eq m c 0).trans (Cert.KernelIdeal.Hand.V_main_arg0 m c))),
      ((h c).2 Cert.KernelIdeal.main_arg1 (Pipeline.mem_restRefs_of Cert.KernelIdeal.main_arg1 (by decide) (by decide))).trans (Cert.KernelIdeal.Hand.V_main_arg1 m c),
      ((h c).2 Cert.KernelIdeal.main_arg2 (Pipeline.mem_restRefs_of Cert.KernelIdeal.main_arg2 (by decide) (by decide))).trans (Cert.KernelIdeal.Hand.V_main_arg2 m c),
      ((h c).2 Cert.KernelIdeal.main_arg3 (Pipeline.mem_restRefs_of Cert.KernelIdeal.main_arg3 (by decide) (by decide))).trans (Cert.KernelIdeal.Hand.V_main_arg3 m c),
      ((h c).2 Cert.KernelIdeal.main_arg4 (Pipeline.mem_restRefs_of Cert.KernelIdeal.main_arg4 (by decide) (by decide))).trans (Cert.KernelIdeal.Hand.V_main_arg4 m c),
      ((h c).2 Cert.KernelIdeal.main_arg5 (Pipeline.mem_restRefs_of Cert.KernelIdeal.main_arg5 (by decide) (by decide))).trans (Cert.KernelIdeal.Hand.V_main_arg5 m c),
      ((h c).2 Cert.KernelIdeal.main_arg6 (Pipeline.mem_restRefs_of Cert.KernelIdeal.main_arg6 (by decide) (by decide))).trans (Cert.KernelIdeal.Hand.V_main_arg6 m c)⟩)
    (Cert.KernelIdeal.Hand.run_main m ρ)

/-- From memories that agree on the arguments both programs end with the same result: the network of the
    arguments, which each reads off block by block. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), kernel_run m ρ, ?_⟩
  refine (θ_run Cert.ReferenceIdeal.defs _ _).mono (fun _ h c => ⟨(h c).1.trans ?_, (h c).2⟩) (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
